-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S600x10000 : Shape := ⟨2, ![600, 10000]⟩
abbrev S600x128 : Shape := ⟨2, ![600, 128]⟩
abbrev S600 : Shape := ⟨1, ![600]⟩
abbrev S600x1 : Shape := ⟨2, ![600, 1]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S600x10000, .f32⟩
  | .local _ .vmem, ⟨1, _⟩ => ⟨S600x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S600x128, .f32⟩
  | .local _ .vmem, ⟨6, _⟩ => ⟨S600x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S600x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S600x10000_S600x10000_0_0 : ∀ a, (![0, 0] : Fin 2 → Nat) a + S600x10000.size a ≤ S600x10000.size a
  h_S600x10000 : 0 < S600x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S600x128 : S1x128.Broadcasts S600x128
  reduces_S600x128_S600 : S600x128.Reduces [1] S600
  shapeCasts_S600_S600x1 : S600.ShapeCasts S600x1
  broadcasts_S600x1_S600x128 : S600x1.Broadcasts S600x128
  inb_S600x128_S600x128_0_0 : ∀ a, (![0, 0] : Fin 2 → Nat) a + S600x128.size a ≤ S600x128.size a
  h_S600x128 : 0 < S600x128.numel
  dot_S600x10000_S10000x128_S600x128_1_0_0_1_n_n_wf : DotDims.WF S600x10000 S10000x128 S600x128 [1] [0] [0] [1] [] []
  dot_S600x128_S128x128_S600x128_1_0_0_1_n_n_wf : DotDims.WF S600x128 S128x128 S600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S600x10000.size a < S10000x10000.size a
  hwx0_0 : ∀ i : grid0.Coords, EltTy.bits .f32 = 32 ∨ (Rect.unit (s := S10000x10000) (fun a => cc0_transform_0 i a * S600x10000.size a) (fun a => (Pipeline.Clip.of (cc0_transform_0 i a) (S600x10000.size a) (S10000x10000.size a)).extent (S600x10000.size a)) fun a => Pipeline.Clip.inb (Pipeline.Clip.ok_of (hstart0_0 i a))).WholeWords (EltTy.packing .f32)
  hwxs0_0 : ∀ i : grid0.Coords, EltTy.bits .f32 = 32 ∨ (Rect.unit (s := S600x10000) (fun _ => 0) (fun a => (Pipeline.Clip.of (cc0_transform_0 i a) (S600x10000.size a) (S10000x10000.size a)).extent (S600x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S600x128.size a < S10000x128.size a
  hwx0_4 : ∀ i : grid0.Coords, EltTy.bits .f32 = 32 ∨ (Rect.unit (s := S10000x128) (fun a => cc0_transform_4 i a * S600x128.size a) (fun a => (Pipeline.Clip.of (cc0_transform_4 i a) (S600x128.size a) (S10000x128.size a)).extent (S600x128.size a)) fun a => Pipeline.Clip.inb (Pipeline.Clip.ok_of (hstart0_4 i a))).WholeWords (EltTy.packing .f32)
  hwxs0_4 : ∀ i : grid0.Coords, EltTy.bits .f32 = 32 ∨ (Rect.unit (s := S600x128) (fun _ => 0) (fun a => (Pipeline.Clip.of (cc0_transform_4 i a) (S600x128.size a) (S10000x128.size a)).extent (S600x128.size a)) fun a => (Nat.zero_add _).trans_le (Pipeline.Clip.extent_le (Pipeline.Clip.ok_of (hstart0_4 i a)))).WholeWords (EltTy.packing .f32)

variable [Facts₀]

def dot_S600x10000_S10000x128_S600x128_1_0_0_1_n_n : DotDims S600x10000 S10000x128 S600x128 where
  lhsContracting := [1]
  rhsContracting := [0]
  lhsNonContracting := [0]
  rhsNonContracting := [1]
  lhsBatch := []
  rhsBatch := []
  wf := dot_S600x10000_S10000x128_S600x128_1_0_0_1_n_n_wf
def dot_S600x128_S128x128_S600x128_1_0_0_1_n_n : DotDims S600x128 S128x128 S600x128 where
  lhsContracting := [1]
  rhsContracting := [0]
  lhsNonContracting := [0]
  rhsNonContracting := [1]
  lhsBatch := []
  rhsBatch := []
  wf := dot_S600x128_S128x128_S600x128_1_0_0_1_n_n_wf

abbrev win0_0 : Pipeline.Window sig grid0 :=
  Pipeline.Window.ofSpecClip (Memref.whole main_arg1) S600x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S600x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000x1, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  shapeCasts_S10000_S10000x1 : S10000.ShapeCasts S10000x1
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsBody.lean ====
/-
  The kernel body as a Hoare triple, at any float instance.

  The body reads its four input staging buffers whole (a 600-row strip of the adjacency matrix, the features, the
  weights, the bias row), reads the result's staging buffer (a value it never uses), and stores ONE value over the
  whole of the result's staging buffer: the pure function `k0_pay1` of the four values read. So from any contents
  of the five buffers it runs to the state where the four inputs hold what they held and the result's buffer holds
  `k0_pay1` of them. Nothing here looks inside `k0_pay1`: the triple is about memory only.
-/
import proofs.«174248_g8435315769432_cont_9to1_m_1355_6_alg».proof.Proof.Gen.Kernel.Frame
import proofs.«174248_g8435315769432_cont_9to1_m_1355_6_alg».proof.Proof.Gen.Kernel.Skeleton
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a [600, 128] buffer as a rectangle: offset zero, the buffer's own extents. -/
abbrev rOut : Rect S600x128 := Rect.unit (s := S600x128) ![0, 0] S600x128.size inb_S600x128_S600x128_0_0

/-- The one store covers the result's buffer (it is the whole buffer). -/
theorem cover_out (p0 : Vec F S600x128 .f32) (y : S600x128.Idx) :
    ∃ pc ∈ ([⟨rOut, p0⟩] : List (View.Piece (Elt F) S600x128 .f32)), y ∈ pc.1.set :=
  View.cover_of_tiled [⟨rOut, p0⟩] S600x128.size (by rfl) y

/-- Offsets `![0, 0]` are the zero offsets. -/
theorem hz2 : (![0, 0] : Fin 2 → Nat) = fun _ => 0 := funext fun a => by fin_cases a <;> rfl

set_option maxHeartbeats 1000000 in
/-- The body on whole staging memrefs: the four inputs at `x0 … x3`, the result's at anything, to the four inputs
    unchanged and the result's at `k0_pay1 x0 x1 x2 x3`. -/
theorem sound_kernel (c : Dev nD) (E : Set ℕ) (i : grid0.Coords)
    (arg1 : Memref sig .tc .vmem S600x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S600x128 .f32) (harg5 : arg5.IsWhole)
    (x0 : Vec F S600x10000 .f32) (x1 : Vec F S10000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero hz2]
  simp only [View.readAt_eq_ld, View.ld_unit_zero (S := S600x10000) hz2, View.ld_unit_zero (S := S10000x128) hz2,
    View.ld_unit_zero (S := S128x128) hz2, View.ld_unit_zero (S := S1x128) hz2]

end Cert.Kernel.Body

end
-- ==== Proof.BitsFrame.lean ====
/-
  The frame of the word-level program: it runs to the end, faults nowhere, and leaves its four argument arrays as
  they were. Nothing is said of the result array.

  The one pallas_call walks 17 strips of 600 rows over a 10000-row adjacency matrix; the last strip overhangs the
  matrix by 200 rows, so its fetch is cut at the matrix's end and the tail of the staging buffer holds words nothing
  names. The body multiplies the whole strip, tail included, so the rows of the result's staging buffer that
  correspond to the tail are unnamed too, and at this instance a matrix product need not be row by row. None of that
  matters to a frame: the body is straight-line code with no branch, address, trip count or wait taken from a loaded
  word, and the write-back is cut at the array's end like the fetch. So the result's window is FORGOTTEN (handed to
  the body at any contents and taken back at any), the strip's window is stated on its rows inside the matrix only,
  and the three whole-array windows (features, weights, bias row) hold their arrays at every point.
-/
import proofs.«174248_g8435315769432_cont_9to1_m_1355_6_alg».proof.Proof.BitsBody

set_option maxRecDepth 16384

noncomputable section

namespace Cert.Kernel.FrameRun

open Cert.Kernel Cert.Kernel.Gen Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result's window (4) is forgotten: no claim here reads what the body leaves in it. -/
def forgets : Fin 5 → Bool := fun w => w.val == 4

/-- The strip of the adjacency matrix at point `t` as a whole [600, 10000] block: its rows inside the matrix, and
    the zero word on the rows past the matrix's end (rows nothing reads: any filler would do). -/
def strip (c : Dev nD) (t : Fin cfg0.N) : S600x10000.Idx → Elt F .f32 :=
  win0_0.fill (grid0.coords t) (fun _ => Scalar.ofBits .f32 0#32) (iblk m c 0 t)

/-- The proof data on core `c`: the arrays as the region finds them; after the body at point `t` the strip's buffer
    at `strip` (stated on the rows inside the matrix), the three whole-array windows at their arrays, the result's
    unnamed; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => strip m c t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = strip m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- The strip's buffer when the body runs: fetched at every point, so the strip's rows inside the matrix on the
    buffer's leading rows and whatever the buffer held (`d`) past them. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk
  rw [A_eq]

/-- The whole-array windows hold their arrays at every point, fetched there (the first point) or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

/-- What the body is called with at point `t`: the invariant, what the core owes, the four inputs' current buffers
    at what they hold, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- What it returns: the same, the strip's buffer stated on its rows inside the matrix, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point: the body's triple applies to what the buffers hold; the inputs come back as they were,
    and the strip's rows inside the matrix are `strip`'s (a fill's leading part is what it was filled with). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%X4, H4⟩⟩
  iapply (sound_kernel c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    have hx : win0_0.cut (grid0.coords t) (strip m c t) = iblk m c 0 t := win0_0.cut_fill _ _ _
    change _ ⊢ owns (c : Thread nD τ) (st0_0 t) fullShare (win0_0.fill (grid0.coords t) d0 (win0_0.cut (grid0.coords t) (strip m c t)))
    rw [hx]
  isplitl [H1]; · iexact H1
  isplitl [H2]; · iexact H2
  isplitl [H3]; · iexact H3
  iexists _; iexact H4

/-- The library's body obligation at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of @main terminates, every input
    array of the pipeline ends as the region found it (nothing is stated of the forgotten result), and every other
    unscoped buffer ends as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- THE FRAME: the three argument arrays a window stages (features, adjacency, weights) are inputs of the pipeline, so
    they end at their entry contents; the bias is staged by no window (a reshaped copy of it is) and no host
    operation writes it; and the region found each of the four as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 1 rfl).trans ((A_eq m c 1).trans (V_main_arg0 m c)),
      (Pipeline.RDat.FramePost.arr_in h c 0 rfl).trans ((A_eq m c 0).trans (V_main_arg1 m c)),
      (Pipeline.RDat.FramePost.arr_in h c 2 rfl).trans ((A_eq m c 2).trans (V_main_arg2 m c)),
      ((h c).2 main_arg3 (Pipeline.mem_restRefs_of main_arg3 (by decide) (by decide))).trans (V_main_arg3 m c)⟩) (run_main m ρ)

end Cert.Kernel.FrameRun

end
-- ==== Proof.IdealBody.lean ====
/-
  The kernel body as a Hoare triple, at any float instance.

  The body reads its four input staging buffers whole (a 600-row strip of the adjacency matrix, the features, the
  weights, the bias row), reads the result's staging buffer (a value it never uses), and stores ONE value over the
  whole of the result's staging buffer: the pure function `k0_pay1` of the four values read. So from any contents
  of the five buffers it runs to the state where the four inputs hold what they held and the result's buffer holds
  `k0_pay1` of them. Nothing here looks inside `k0_pay1`: the triple is about memory only.
-/
import proofs.«174248_g8435315769432_cont_9to1_m_1355_6_alg».proof.Proof.Gen.KernelIdeal.Frame
import proofs.«174248_g8435315769432_cont_9to1_m_1355_6_alg».proof.Proof.Gen.KernelIdeal.Skeleton
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a [600, 128] buffer as a rectangle: offset zero, the buffer's own extents. -/
abbrev rOut : Rect S600x128 := Rect.unit (s := S600x128) ![0, 0] S600x128.size inb_S600x128_S600x128_0_0

/-- The one store covers the result's buffer (it is the whole buffer). -/
theorem cover_out (p0 : Vec F S600x128 .f32) (y : S600x128.Idx) :
    ∃ pc ∈ ([⟨rOut, p0⟩] : List (View.Piece (Elt F) S600x128 .f32)), y ∈ pc.1.set :=
  View.cover_of_tiled [⟨rOut, p0⟩] S600x128.size (by rfl) y

/-- Offsets `![0, 0]` are the zero offsets. -/
theorem hz2 : (![0, 0] : Fin 2 → Nat) = fun _ => 0 := funext fun a => by fin_cases a <;> rfl

set_option maxHeartbeats 1000000 in
/-- The body on whole staging memrefs: the four inputs at `x0 … x3`, the result's at anything, to the four inputs
    unchanged and the result's at `k0_pay1 x0 x1 x2 x3`. -/
theorem sound_kernel (c : Dev nD) (E : Set ℕ) (i : grid0.Coords)
    (arg1 : Memref sig .tc .vmem S600x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S600x128 .f32) (harg5 : arg5.IsWhole)
    (x0 : Vec F S600x10000 .f32) (x1 : Vec F S10000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0__gcn_kernel i arg1 harg1 arg2 harg2 arg3 harg3 arg4 harg4 arg5 harg5) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero hz2]
  simp only [View.readAt_eq_ld, View.ld_unit_zero (S := S600x10000) hz2, View.ld_unit_zero (S := S10000x128) hz2,
    View.ld_unit_zero (S := S128x128) hz2, View.ld_unit_zero (S := S1x128) hz2]

end Cert.KernelIdeal.Body

end
-- ==== Proof.Spec.lean ====
/-
  The graph-convolution layer as ONE function of its four argument arrays, on the extended reals.

  For a row `a` of the adjacency matrix (a function of the column `n`), the features `x`, the weights `W` and the
  bias `b`:
    lin a x W b j  = (Σ_c (Σ_n a n · x[n, c]) · W[c, j]) + b j        the linear layer's row, before normalisation
    sumsq a x W b  = Σ_k (lin … k)²                                     the row's squared Euclidean length
    rowOut … j     = lin … j / √(sumsq …)                               the row scaled to unit length
  and `G adj x W bias` is `rowOut` of row `i 0` of `adj`, read at column `i 1`. A row of the result depends on ONE
  row of `adj` and on all of `x`, `W`, `bias`; this is what lets a strip of rows be computed from a strip of `adj`.
  The division and the root are the extended reals' (`Ideal.div`, `Ideal.sqrt`): at a zero row the quotient is the
  same junk value on both sides of any comparison, so no finiteness or non-vanishing hypothesis is needed to state it.
-/
import Idealize.ShloMosaic.PureOps.Ideal
import Idealize.ShloMosaic.Lib.ValueIdx

noncomputable section

namespace Cert.Gcn

open Idealize.ShloMosaic Idealize.ShloMosaic.ValueIdx

/-- The linear layer on one row `a` of the adjacency matrix: `(a · x) · W + b`, at output column `j`. -/
def lin (a : Fin 10000 → EReal) (x : (⟨2, ![10000, 128]⟩ : Shape).Idx → EReal)
    (W : (⟨2, ![128, 128]⟩ : Shape).Idx → EReal) (b : Fin 128 → EReal) (j : Fin 128) : EReal :=
  (∑ c : Fin 128, (∑ n : Fin 10000, a n * x (ix2 n c)) * W (ix2 c j)) + b j

/-- The squared Euclidean length of that row. -/
def sumsq (a : Fin 10000 → EReal) (x : (⟨2, ![10000, 128]⟩ : Shape).Idx → EReal)
    (W : (⟨2, ![128, 128]⟩ : Shape).Idx → EReal) (b : Fin 128 → EReal) : EReal :=
  ∑ k : Fin 128, lin a x W b k * lin a x W b k

/-- The row divided by its Euclidean length. -/
def rowOut (a : Fin 10000 → EReal) (x : (⟨2, ![10000, 128]⟩ : Shape).Idx → EReal)
    (W : (⟨2, ![128, 128]⟩ : Shape).Idx → EReal) (b : Fin 128 → EReal) (j : Fin 128) : EReal :=
  Ideal.div (lin a x W b j) (Ideal.sqrt (sumsq a x W b))

/-- The whole layer: entry `i` of the result is `rowOut` of row `i 0` of `adj`, at column `i 1`. -/
def G (adj : (⟨2, ![10000, 10000]⟩ : Shape).Idx → EReal) (x : (⟨2, ![10000, 128]⟩ : Shape).Idx → EReal)
    (W : (⟨2, ![128, 128]⟩ : Shape).Idx → EReal) (bias : (⟨1, ![128]⟩ : Shape).Idx → EReal) :
    (⟨2, ![10000, 128]⟩ : Shape).Idx → EReal :=
  fun i => rowOut (fun n => adj (ix2 (i 0) n)) x W (fun j => bias (ix1 j)) (i 1)

/-- `rowOut` reads its row only through the row's entries: two rows that agree entry by entry give one result. -/
theorem rowOut_congr {a a' : Fin 10000 → EReal} (h : ∀ n, a n = a' n) (x : (⟨2, ![10000, 128]⟩ : Shape).Idx → EReal)
    (W : (⟨2, ![128, 128]⟩ : Shape).Idx → EReal) (b : Fin 128 → EReal) (j : Fin 128) :
    rowOut a x W b j = rowOut a' x W b j := by
  rw [show a = a' from funext h]

end Cert.Gcn

end
-- ==== Proof.PayloadAt.lean ====
/-
  The kernel body's one stored value, read at an entry.

  The body computes, from a strip `v0` of 600 rows of the adjacency matrix, the features `v1`, the weights `v3` and
  the bias row `v5`, the strip  (v0 · v1) · v3 + bias  and divides each row by its Euclidean length. Read at `(r, j)`:
    • each product into a zero accumulator is a finite sum over its one contracted axis (`0 + s = s`), re-indexed from
      the contraction's index set to `Fin 10000` / `Fin 128`; its left operand is read at `(r, ·)`, its right at `(·, j)`;
    • the bias row, cast to its own shape and broadcast over the rows, is read at `(0, j)`;
    • the lane sum of the squares at row `r` is the sum over the 128 entries of that row;
    • the cast `[600] → [600, 1]`, the pointwise root and the broadcast `[600, 1] → [600, 128]` read that sum's root
      at row `r`, whatever the column.
  So entry `(r, j)` depends on the strip only through its row `r`, and is `Cert.Gcn.rowOut` of that row at `j`.
  No finiteness is used: both sides are the same sums, the same root and the same quotient on the extended reals.
-/
import proofs.«174248_g8435315769432_cont_9to1_m_1355_6_alg».proof.Proof.Spec
import proofs.«174248_g8435315769432_cont_9to1_m_1355_6_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
noncomputable section
open Idealize.ShloMosaic Idealize.ShloMosaic.ValueIdx
namespace Cert.Gcn.Pay
open Cert.KernelIdeal Cert.KernelIdeal.Gen

/-! ## The first product: a strip of rows of the adjacency matrix times the features -/

theorem lhs_mm1_0 (i : S600x128.Idx) (q : dot_S600x10000_S10000x128_S600x128_1_0_0_1_n_n.contr.Idx) :
    (dot_S600x10000_S10000x128_S600x128_1_0_0_1_n_n.lhsIdx i q 0).val = (i 0).val := by
  unfold DotDims.lhsIdx
  rw [dif_neg (show ¬(0 : Fin S600x10000.rank) ∈ dot_S600x10000_S10000x128_S600x128_1_0_0_1_n_n.lhsBatch by decide),
    dif_pos (show (0 : Fin S600x10000.rank) ∈ dot_S600x10000_S10000x128_S600x128_1_0_0_1_n_n.lhsNonContracting by decide)]
  rfl
theorem lhs_mm1_1 (i : S600x128.Idx) (q : dot_S600x10000_S10000x128_S600x128_1_0_0_1_n_n.contr.Idx) :
    (dot_S600x10000_S10000x128_S600x128_1_0_0_1_n_n.lhsIdx i q 1).val = (q ⟨0, by decide⟩).val :=
  dot_S600x10000_S10000x128_S600x128_1_0_0_1_n_n.lhsIdx_val_of_single rfl i q
theorem rhs_mm1_0 (i : S600x128.Idx) (q : dot_S600x10000_S10000x128_S600x128_1_0_0_1_n_n.contr.Idx) :
    (dot_S600x10000_S10000x128_S600x128_1_0_0_1_n_n.rhsIdx i q 0).val = (q ⟨0, by decide⟩).val :=
  dot_S600x10000_S10000x128_S600x128_1_0_0_1_n_n.rhsIdx_val_of_single rfl i q
theorem rhs_mm1_1 (i : S600x128.Idx) (q : dot_S600x10000_S10000x128_S600x128_1_0_0_1_n_n.contr.Idx) :
    (dot_S600x10000_S10000x128_S600x128_1_0_0_1_n_n.rhsIdx i q 1).val = (i 1).val := by
  unfold DotDims.rhsIdx
  rw [dif_neg (show ¬(1 : Fin S10000x128.rank) ∈ dot_S600x10000_S10000x128_S600x128_1_0_0_1_n_n.rhsBatch by decide),
    dif_pos (show (1 : Fin S10000x128.rank) ∈ dot_S600x10000_S10000x128_S600x128_1_0_0_1_n_n.rhsNonContracting by decide)]
  rfl

/-- Entry `(p, c)` of the first product is the sum over the 10000 columns `n` of the strip's row `p` against
    column `c` of the features. -/
theorem mm1_at (v0 : FVec Ideal S600x10000 .f32) (v1 : FVec Ideal S10000x128 .f32) (p : Fin 600) (c : Fin 128) :
    matmul (F := Ideal) dot_S600x10000_S10000x128_S600x128_1_0_0_1_n_n none v0 v1
        (constant (F := Ideal) S600x128 .f32 0x00000000#32) (ix2 p c)
      = ∑ n : Fin 10000, v0 (ix2 p n) * v1 (ix2 n c) := by
  simp only [matmul]
  rw [Ideal.matmul_constant_zero_apply,
    ← Equiv.sum_comp (contrEquiv1 dot_S600x10000_S10000x128_S600x128_1_0_0_1_n_n 10000 rfl rfl).symm]
  refine Finset.sum_congr rfl fun k _ => ?_
  have hk := contrEquiv1_symm_val dot_S600x10000_S10000x128_S600x128_1_0_0_1_n_n 10000 rfl rfl k
  have el : dot_S600x10000_S10000x128_S600x128_1_0_0_1_n_n.lhsIdx (ix2 p c)
      ((contrEquiv1 dot_S600x10000_S10000x128_S600x128_1_0_0_1_n_n 10000 rfl rfl).symm k) = ix2 p k :=
    funext fun a => Fin.ext (by
      match a with
      | ⟨0, _⟩ => exact lhs_mm1_0 _ _
      | ⟨1, _⟩ => exact (lhs_mm1_1 _ _).trans hk)
  have er : dot_S600x10000_S10000x128_S600x128_1_0_0_1_n_n.rhsIdx (ix2 p c)
      ((contrEquiv1 dot_S600x10000_S10000x128_S600x128_1_0_0_1_n_n 10000 rfl rfl).symm k) = ix2 k c :=
    funext fun a => Fin.ext (by
      match a with
      | ⟨0, _⟩ => exact (rhs_mm1_0 _ _).trans hk
      | ⟨1, _⟩ => exact rhs_mm1_1 _ _)
  rw [el, er]

/-! ## The second product: that strip times the weights -/

theorem lhs_mm2_0 (i : S600x128.Idx) (q : dot_S600x128_S128x128_S600x128_1_0_0_1_n_n.contr.Idx) :
    (dot_S600x128_S128x128_S600x128_1_0_0_1_n_n.lhsIdx i q 0).val = (i 0).val := by
  unfold DotDims.lhsIdx
  rw [dif_neg (show ¬(0 : Fin S600x128.rank) ∈ dot_S600x128_S128x128_S600x128_1_0_0_1_n_n.lhsBatch by decide),
    dif_pos (show (0 : Fin S600x128.rank) ∈ dot_S600x128_S128x128_S600x128_1_0_0_1_n_n.lhsNonContracting by decide)]
  rfl
theorem lhs_mm2_1 (i : S600x128.Idx) (q : dot_S600x128_S128x128_S600x128_1_0_0_1_n_n.contr.Idx) :
    (dot_S600x128_S128x128_S600x128_1_0_0_1_n_n.lhsIdx i q 1).val = (q ⟨0, by decide⟩).val :=
  dot_S600x128_S128x128_S600x128_1_0_0_1_n_n.lhsIdx_val_of_single rfl i q
theorem rhs_mm2_0 (i : S600x128.Idx) (q : dot_S600x128_S128x128_S600x128_1_0_0_1_n_n.contr.Idx) :
    (dot_S600x128_S128x128_S600x128_1_0_0_1_n_n.rhsIdx i q 0).val = (q ⟨0, by decide⟩).val :=
  dot_S600x128_S128x128_S600x128_1_0_0_1_n_n.rhsIdx_val_of_single rfl i q
theorem rhs_mm2_1 (i : S600x128.Idx) (q : dot_S600x128_S128x128_S600x128_1_0_0_1_n_n.contr.Idx) :
    (dot_S600x128_S128x128_S600x128_1_0_0_1_n_n.rhsIdx i q 1).val = (i 1).val := by
  unfold DotDims.rhsIdx
  rw [dif_neg (show ¬(1 : Fin S128x128.rank) ∈ dot_S600x128_S128x128_S600x128_1_0_0_1_n_n.rhsBatch by decide),
    dif_pos (show (1 : Fin S128x128.rank) ∈ dot_S600x128_S128x128_S600x128_1_0_0_1_n_n.rhsNonContracting by decide)]
  rfl

/-- Entry `(p, q)` of the second product, for any left operand `y`, is the sum over the 128 hidden columns `c` of
    `y`'s row `p` against column `q` of the weights. -/
theorem mm2_at (y : FVec Ideal S600x128 .f32) (v3 : FVec Ideal S128x128 .f32) (p : Fin 600) (q : Fin 128) :
    matmul (F := Ideal) dot_S600x128_S128x128_S600x128_1_0_0_1_n_n none y v3
        (constant (F := Ideal) S600x128 .f32 0x00000000#32) (ix2 p q)
      = ∑ c : Fin 128, y (ix2 p c) * v3 (ix2 c q) := by
  simp only [matmul]
  rw [Ideal.matmul_constant_zero_apply,
    ← Equiv.sum_comp (contrEquiv1 dot_S600x128_S128x128_S600x128_1_0_0_1_n_n 128 rfl rfl).symm]
  refine Finset.sum_congr rfl fun k _ => ?_
  have hk := contrEquiv1_symm_val dot_S600x128_S128x128_S600x128_1_0_0_1_n_n 128 rfl rfl k
  have el : dot_S600x128_S128x128_S600x128_1_0_0_1_n_n.lhsIdx (ix2 p q)
      ((contrEquiv1 dot_S600x128_S128x128_S600x128_1_0_0_1_n_n 128 rfl rfl).symm k) = ix2 p k :=
    funext fun a => Fin.ext (by
      match a with
      | ⟨0, _⟩ => exact lhs_mm2_0 _ _
      | ⟨1, _⟩ => exact (lhs_mm2_1 _ _).trans hk)
  have er : dot_S600x128_S128x128_S600x128_1_0_0_1_n_n.rhsIdx (ix2 p q)
      ((contrEquiv1 dot_S600x128_S128x128_S600x128_1_0_0_1_n_n 128 rfl rfl).symm k) = ix2 k q :=
    funext fun a => Fin.ext (by
      match a with
      | ⟨0, _⟩ => exact (rhs_mm2_0 _ _).trans hk
      | ⟨1, _⟩ => exact rhs_mm2_1 _ _)
  rw [el, er]

/-! ## The layout operations at coordinates -/

/-- The bias row, cast to its own shape and broadcast down the strip, reads at `(p, q)` the bias at column `q`. -/
theorem bias_at (v5 : FVec Ideal S1x128 .f32) (h1 : S1x128.ShapeCasts S1x128) (h2 : S1x128.Broadcasts S600x128)
    (p : Fin 600) (q : Fin 128) :
    broadcastTo S600x128 (shapeCast S1x128 v5 h1) h2 (ix2 p q) = v5 (ix2 (0 : Fin 1) q) := by
  rw [shapeCast_self]
  exact broadcastTo_1b_ab_apply v5 h2 p q

/-- A vector `[a]` cast to the column `[a, 1]` reads, at `(i, u)`, the operand at `i`, whatever the unit
    coordinate `u`: the two row-major positions are `i` and `i * 1 + 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of any strip `z`, started from the zero word, is at row `p` the sum of the 128 entries of
    that row. -/
theorem rowsum_at (z : FVec Ideal S600x128 .f32) (h : S600x128.Reduces [1] S600) (hφ : FKind.Formats .f32)
    (hacc : (0x00000000#32 : BitVec 32) = FKind.add.neutral .f32 hφ) (p : Fin 600) :
    multiReduction (F := Ideal) .add [1] S600 z 0x00000000#32 h hφ hacc (ix1 p) = ∑ k : Fin 128, z (ix2 p k) := by
  refine (Ideal.multiReduction_add_single z 0x00000000#32 h hφ hacc (ix1 p)).trans ?_
  refine Finset.sum_congr rfl fun k _ => congrArg z (funext fun a => Fin.ext ?_)
  match a with
  | ⟨0, _⟩ => rfl
  | ⟨1, _⟩ => rfl

/-! ## The strip's entries are the layer's -/

/-- Entry `(p, q)` of the two products plus the broadcast bias is the linear layer of row `p` of the strip, at
    column `q`: the only law used is `0 + s = s` for the two zero accumulators, inside the product lemmas. -/
theorem lin_at (v0 : FVec Ideal S600x10000 .f32) (v1 : FVec Ideal S10000x128 .f32) (v3 : FVec Ideal S128x128 .f32)
    (v5 : FVec Ideal S1x128 .f32) (h1 : S1x128.ShapeCasts S1x128) (h2 : S1x128.Broadcasts S600x128)
    (p : Fin 600) (q : Fin 128) :
    addf (matmul (F := Ideal) dot_S600x128_S128x128_S600x128_1_0_0_1_n_n none
            (matmul (F := Ideal) dot_S600x10000_S10000x128_S600x128_1_0_0_1_n_n none v0 v1
              (constant (F := Ideal) S600x128 .f32 0x00000000#32))
            v3 (constant (F := Ideal) S600x128 .f32 0x00000000#32))
        (broadcastTo S600x128 (shapeCast S1x128 v5 h1) h2) (ix2 p q)
      = Cert.Gcn.lin (fun n => v0 (ix2 p n)) v1 v3 (fun j => v5 (ix2 (0 : Fin 1) j)) q := by
  rw [addf_apply, mm2_at, bias_at]
  unfold Cert.Gcn.lin
  refine congrArg (· + v5 (ix2 (0 : Fin 1) q)) (Finset.sum_congr rfl fun c _ => ?_)
  rw [mm1_at]

/-- Entry `(r, j)` of the stored value reads the strip only through its row `r`, and is that row of the layer scaled
    to unit length: the quotient and the root are pointwise, the row's squared length is the lane sum of the squares,
    and the column of roots is broadcast back along the row. -/
theorem pay_at (v0 : Vec Ideal S600x10000 .f32) (v1 : Vec Ideal S10000x128 .f32) (v3 : Vec Ideal S128x128 .f32)
    (v5 : Vec Ideal S1x128 .f32) (r : Fin 600) (j : Fin 128) :
    k0_pay1 (F := Ideal) v0 v1 v3 v5 (ix2 r j)
      = Cert.Gcn.rowOut (fun n => v0 (ix2 r n)) v1 v3 (fun j => v5 (ix2 (0 : Fin 1) j)) j := by
  unfold k0_pay1
  refine (divf_apply _ _ (ix2 r j)).trans ?_
  unfold Cert.Gcn.rowOut
  refine congrArg₂ Ideal.div (lin_at v0 v1 v3 v5 _ _ r j) ?_
  refine (broadcastTo_a1_ab_apply _ _ r j).trans ?_
  refine congrArg Ideal.sqrt ?_
  refine (shapeCast_a_a1_apply _ _ r (0 : Fin 1)).trans ?_
  refine (rowsum_at _ _ _ _ r).trans ?_
  unfold Cert.Gcn.sumsq
  refine Finset.sum_congr rfl fun k _ => ?_
  rw [mulf_apply, lin_at]

end Cert.Gcn.Pay
end
-- ==== Proof.IdealRun.lean ====
/-
  The idealized program's run with the result array NAMED, at the extended reals.

  The one pallas_call walks 17 strips of 600 rows over the 10000-row adjacency matrix. At point `t` the body finds the
  strip's staging buffer holding rows 600 t … of the matrix on its leading rows and, at the last point, words nothing
  names on the 200 rows past the matrix's end. It stores `k0_pay1` of the whole buffer into the result's buffer, and
  the write-back copies only the rows inside the result array. At the extended reals a row of `k0_pay1` depends on
  ONE row of the strip (it is `rowOut` of that row: the payload lemma), so the rows written back do not depend on the
  unnamed tail: they are `k0_pay1` of the strip with the tail replaced by zeros, which is what the proof data names.
-/
import proofs.«174248_g8435315769432_cont_9to1_m_1355_6_alg».proof.Proof.IdealBody
import proofs.«174248_g8435315769432_cont_9to1_m_1355_6_alg».proof.Proof.PayloadAt
import Idealize.ShloMosaic.Lib.Pipeline.Value

set_option maxRecDepth 16384

noncomputable section

namespace Cert.KernelIdeal.ValueRun

open Cert.KernelIdeal Cert.KernelIdeal.Gen Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The grid, decided once -/

/-- At every point `t`: the strip's window and the result's window sit at block row `t`, block column 0; both are cut
    to the same number of rows; neither is cut along its columns; and block row `t` with its cut height ends at
    `600 (t + 1)` or at the array's last row, whichever comes first. -/
theorem grid_facts : ∀ t : Fin cfg0.N,
    win0_0.index t (0 : Fin 2) = t.val ∧ win0_0.index t (1 : Fin 2) = 0
    ∧ win0_4.index t (0 : Fin 2) = t.val ∧ win0_4.index t (1 : Fin 2) = 0
    ∧ win0_0.xsize (grid0.coords t) (0 : Fin 2) = win0_4.xsize (grid0.coords t) (0 : Fin 2)
    ∧ win0_0.xsize (grid0.coords t) (1 : Fin 2) = 10000
    ∧ win0_4.xsize (grid0.coords t) (1 : Fin 2) = 128
    ∧ ((t.val + 1) * 600 ≤ 10000 → win0_4.xsize (grid0.coords t) (0 : Fin 2) = 600)
    ∧ (10000 < (t.val + 1) * 600 → t.val * 600 + win0_4.xsize (grid0.coords t) (0 : Fin 2) = 10000)
    ∧ t.val < 17 :=
  (by decide +kernel : ∀ t : Fin grid0.N, _)

/-- The three whole-array windows sit at block (0, 0) at every point. -/
theorem whole_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The proof data -/

/-- The strip at point `t` as a whole [600, 10000] block: its rows inside the matrix, zero past the matrix's end. -/
def strip (c : Dev nD) (t : Fin cfg0.N) : Vec Ideal S600x10000 .f32 :=
  win0_0.fill (grid0.coords t) (fun _ => Scalar.ofBits (F := Ideal) .f32 0#32) (iblk m c 0 t)

/-- The three whole-array blocks, at their literal types. -/
abbrev xblk (c : Dev nD) (t : Fin cfg0.N) : Vec Ideal S10000x128 .f32 := iblk m c 1 t
abbrev wblk (c : Dev nD) (t : Fin cfg0.N) : Vec Ideal S128x128 .f32 := iblk m c 2 t
abbrev bblk (c : Dev nD) (t : Fin cfg0.N) : Vec Ideal S1x128 .f32 := iblk m c 3 t

/-- What the proof data names for the result's buffer after the body at point `t`: the stored value computed from
    the zero-filled strip. -/
def outBlk (c : Dev nD) (t : Fin cfg0.N) : Vec Ideal S600x128 .f32 :=
  k0_pay1 (F := Ideal) (strip m c t) (xblk m c t) (wblk m c t) (bblk m c t)

def dats (_ : Fin 1) (c : Dev nD) : Dat τ (Elt Ideal) Unit ℕ (UR sig nD τ) ℕ cfg0 c where
  A w := V m c (Pipeline.arrRef spec0 w)
  after w t := match w with
    | ⟨0, _⟩ => strip m c t
    | ⟨1, _⟩ => iblk m c 1 t
    | ⟨2, _⟩ => iblk m c 2 t
    | ⟨3, _⟩ => iblk m c 3 t
    | ⟨4, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = strip m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlk m c t := by dsimp only [dats]

theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk
  rw [A_eq]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- The result's buffer is written back at every point, so the body always finds it at contents nothing names. -/
theorem before_4 (c : Dev nD) (t : Fin cfg0.N) (d) : (dats m 0 c).before 4 t d = d :=
  (dats m 0 c).before_out_reset 4 rfl t (by
    by_cases h : t.val = 0
    · exact .inl h
    · exact .inr ⟨h, flush0_4 _⟩) d

/-! ## A stored row depends on one row of the strip -/

/-- Two fillings of the strip's buffer agree on every row inside the matrix, whatever filled the tail. -/
theorem fill_row (c : Dev nD) (t : Fin cfg0.N) (d d' : S600x10000.Idx → Elt Ideal .f32) (r : Fin 600)
    (hr : r.val < win0_4.xsize (grid0.coords t) (0 : Fin 2)) (n : Fin 10000) :
    win0_0.fill (grid0.coords t) d (iblk m c 0 t) (ix2 r n) = win0_0.fill (grid0.coords t) d' (iblk m c 0 t) (ix2 r n) := by
  obtain ⟨-, -, -, -, ex, e1, -⟩ := grid_facts t
  have h : win0_0.moved (grid0.coords t) (ix2 r n) = true := (win0_0.moved_iff _ _).mpr fun a => by
    match a with
    | ⟨0, _⟩ => show r.val < win0_0.xsize (grid0.coords t) (0 : Fin 2); rw [ex]; exact hr
    | ⟨1, _⟩ => show n.val < win0_0.xsize (grid0.coords t) (1 : Fin 2); rw [e1]; exact n.isLt
  unfold Window.fill; rw [dif_pos h, dif_pos h]

/-- So the rows of the stored value that are written back are those of `outBlk`, whatever filled the strip's tail. -/
theorem cut_stored (c : Dev nD) (t : Fin cfg0.N) (d : S600x10000.Idx → Elt Ideal .f32) :
    win0_4.cut (grid0.coords t) (k0_pay1 (F := Ideal) (win0_0.fill (grid0.coords t) d (iblk m c 0 t)) (xblk m c t) (wblk m c t) (bblk m c t))
      = win0_4.cut (grid0.coords t) (outBlk m c t) := by
  funext j
  have hj0 : (j 0).val < win0_4.xsize (grid0.coords t) (0 : Fin 2) := (j 0).isLt
  have hj1 : (j 1).val < win0_4.xsize (grid0.coords t) (1 : Fin 2) := (j 1).isLt
  have e : win0_4.xinj (grid0.coords t) j
      = ix2 (⟨(j 0).val, Nat.lt_of_lt_of_le hj0 (win0_4.xsize_le _ 0)⟩ : Fin 600) (⟨(j 1).val, Nat.lt_of_lt_of_le hj1 (win0_4.xsize_le _ 1)⟩ : Fin 128) :=
    funext fun a => Fin.ext (by match a with | ⟨0, _⟩ => rfl | ⟨1, _⟩ => rfl)
  show k0_pay1 (F := Ideal) _ _ _ _ (win0_4.xinj (grid0.coords t) j) = outBlk m c t (win0_4.xinj (grid0.coords t) j)
  rw [e]; unfold outBlk
  refine (Cert.Gcn.Pay.pay_at _ (xblk m c t) (wblk m c t) (bblk m c t) _ _).trans ?_
  refine Eq.trans ?_ (Cert.Gcn.Pay.pay_at (strip m c t) (xblk m c t) (wblk m c t) (bblk m c t) _ _).symm
  exact Cert.Gcn.rowOut_congr (fun n => fill_row m c t _ _ _ hj0 n) _ _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns: the two cut windows (the strip's, the result's) stated on their rows inside their arrays. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

/-- The body at any point. The result's buffer ends at the stored value of the strip AS FOUND (tail and all); on the
    rows written back that is `outBlk` (`cut_stored`), and contents that agree with `outBlk` on those rows are `outBlk`'s
    rows filled out with their own tail. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    have hx : win0_0.cut (grid0.coords t) (strip m c t) = iblk m c 0 t := win0_0.cut_fill _ _ _
    change _ ⊢ owns (c : Thread nD τ) (st0_0 t) fullShare (win0_0.fill (grid0.coords t) d0 (win0_0.cut (grid0.coords t) (strip m c t)))
    rw [hx]
  isplitl [H1]; · iexact H1
  isplitl [H2]; · iexact H2
  isplitl [H3]; · iexact H3
  iexists (k0_pay1 (F := Ideal) (win0_0.fill (grid0.coords t) d0 (iblk m c 0 t)) (xblk m c t) (wblk m c t) (bblk m c t))
  have hy := win0_4.fill_congr_cut (grid0.coords t) (cut_stored m c t d0)
  change _ ⊢ owns (c : Thread nD τ) (st0_4 t) fullShare
    (win0_4.fill (grid0.coords t) (k0_pay1 (F := Ideal) (win0_0.fill (grid0.coords t) d0 (iblk m c 0 t)) (xblk m c t) (wblk m c t) (bblk m c t))
      (win0_4.cut (grid0.coords t) (outBlk m c t)))
  rw [hy]

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates with every array of the pipeline at what the write-backs leave
    (`arrAt`) and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The run with the result array named as what the 17 write-backs leave, the arguments unchanged. -/
theorem run_blocks : θ_run defs (onTc (τ := τ) (main (F := Ideal))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

/-! ## The result array is the layer -/

/-- The layer of the launch contents on core `c`: `Cert.Gcn.G` of the adjacency matrix, the features, the weights and
    the bias as launched. -/
abbrev layer (c : Dev nD) : S10000x128.Idx → Elt Ideal .f32 :=
  Cert.Gcn.G (m ((c : Thread nD τ).loc main_arg1)) (m ((c : Thread nD τ).loc main_arg0))
    (m ((c : Thread nD τ).loc main_arg2)) (m ((c : Thread nD τ).loc main_arg3))

/-- The bias row the region finds: the host's reshape of the bias vector, whose entry (0, j) is the vector's entry j. -/
theorem bias_row (c : Dev nD) (j : Fin 128) :
    (V m c main_v0 : S1x128.Idx → Elt Ideal .f32) (ix2 (0 : Fin 1) j) = m ((c : Thread nD τ).loc main_arg3) (ix1 j) := by
  have e : (V m c main_v0 : S1x128.Idx → Elt Ideal .f32)
      = shapeCast S1x128 (m ((c : Thread nD τ).loc main_arg3)) shapeCasts_S128_S1x128 := by
    dsimp only [Gen.V, Gen.hostOps0]; after_results; rfl
  rw [e]
  exact shapeCast_apply _ shapeCasts_S128_S1x128 (ix2 (0 : Fin 1) j) (ix1 j)
    (by rewrite [Shape.rowMajor_val_one, Shape.rowMajor_val_two]; show j.val = 0 * 128 + j.val; omega)

/-- The features' window is the whole array at every point: its block IS the array. -/
theorem xblk_eq (c : Dev nD) (t : Fin cfg0.N) : xblk m c t = (V m c main_arg0 : Vec Ideal S10000x128 .f32) := by
  obtain ⟨e0, e1, -⟩ := whole_facts t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- So is the weights' window, -/
theorem wblk_eq (c : Dev nD) (t : Fin cfg0.N) : wblk m c t = (V m c main_arg2 : Vec Ideal S128x128 .f32) := by
  obtain ⟨-, -, e0, e1, -⟩ := whole_facts t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- and the bias row's. -/
theorem bblk_eq (c : Dev nD) (t : Fin cfg0.N) : bblk m c t = (V m c main_v0 : Vec Ideal S1x128 .f32) := by
  obtain ⟨-, -, -, -, e0, e1⟩ := whole_facts t
  funext y
  show V m c main_v0 (((cfg0.win 3).blk t).view.emb y) = V m c main_v0 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Row `r` of the strip at point `t`, for a row inside the matrix, is row `600 t + r` of the adjacency matrix. -/
theorem strip_row (c : Dev nD) (t : Fin cfg0.N) (r : Fin 600) (hr : r.val < win0_4.xsize (grid0.coords t) (0 : Fin 2))
    (R : Fin 10000) (hR : R.val = t.val * 600 + r.val) (n : Fin 10000) :
    strip m c t (ix2 r n) = m ((c : Thread nD τ).loc main_arg1) (ix2 R n) := by
  obtain ⟨e0, e1, -, -, ex, ex1, -⟩ := grid_facts t
  have h : win0_0.moved (grid0.coords t) (ix2 r n) = true := (win0_0.moved_iff _ _).mpr fun a => by
    match a with
    | ⟨0, _⟩ => show r.val < win0_0.xsize (grid0.coords t) (0 : Fin 2); rw [ex]; exact hr
    | ⟨1, _⟩ => show n.val < win0_0.xsize (grid0.coords t) (1 : Fin 2); rw [ex1]; exact n.isLt
  unfold strip Window.fill; rw [dif_pos h, ← V_main_arg1 m c]
  show V m c main_arg1 (((cfg0.win 0).blk t).view.emb _) = V m c main_arg1 (ix2 R n)
  refine congrArg _ (funext fun a => Fin.ext ?_)
  match a with
  | ⟨0, _⟩ => show win0_0.index t (0 : Fin 2) * 600 + 1 * r.val = R.val; rw [e0, hR]; omega
  | ⟨1, _⟩ => show win0_0.index t (1 : Fin 2) * 10000 + 1 * n.val = n.val; rw [e1]; omega

/-- WHAT POINT `t` WRITES BACK is block `t` of the layer, cut at the array's end: row `r` of the stored value is
    `rowOut` of row `r` of the strip, which is row `600 t + r` of the adjacency matrix, and the other three operands
    are the whole arrays. -/
theorem flushed_eq (c : Dev nD) (t : Fin cfg0.N) :
    (dats m 0 c).flushed 4 t = ((cfg0.win 4).blk t).view.read (Elt Ideal) (layer m c) := by
  show (cfg0.win 4).cut (grid0.coords t) ((dats m 0 c).after 4 t) = _
  rw [after_4]
  funext j
  obtain ⟨-, -, e40, e41, -, -, ex1, hfull, hcut, -⟩ := grid_facts t
  have hj0 : (j 0).val < win0_4.xsize (grid0.coords t) (0 : Fin 2) := (j 0).isLt
  have hj1 : (j 1).val < win0_4.xsize (grid0.coords t) (1 : Fin 2) := (j 1).isLt
  have hr600 : (j 0).val < 600 := Nat.lt_of_lt_of_le hj0 (win0_4.xsize_le _ 0)
  have hq128 : (j 1).val < 128 := Nat.lt_of_lt_of_le hj1 (win0_4.xsize_le _ 1)
  have hR : t.val * 600 + (j 0).val < 10000 := by
    rcases Nat.lt_or_ge 10000 ((t.val + 1) * 600) with h | h
    · have := hcut h; omega
    · have := hfull h; omega
  have e : win0_4.xinj (grid0.coords t) j = ix2 (⟨(j 0).val, hr600⟩ : Fin 600) (⟨(j 1).val, hq128⟩ : Fin 128) :=
    funext fun a => Fin.ext (by match a with | ⟨0, _⟩ => rfl | ⟨1, _⟩ => rfl)
  have hemb : ((cfg0.win 4).blk t).view.emb j
      = ix2 (⟨t.val * 600 + (j 0).val, hR⟩ : Fin 10000) (⟨(j 1).val, hq128⟩ : Fin 128) :=
    funext fun a => Fin.ext (by
      match a with
      | ⟨0, _⟩ => show win0_4.index t (0 : Fin 2) * 600 + 1 * (j 0).val = t.val * 600 + (j 0).val; rw [e40]; omega
      | ⟨1, _⟩ => show win0_4.index t (1 : Fin 2) * 128 + 1 * (j 1).val = (j 1).val; rw [e41]; omega)
  show outBlk m c t (win0_4.xinj (grid0.coords t) j) = layer m c (((cfg0.win 4).blk t).view.emb j)
  rw [e, hemb]; unfold outBlk
  refine (Cert.Gcn.Pay.pay_at (strip m c t) (xblk m c t) (wblk m c t) (bblk m c t) _ _).trans ?_
  have hrow : (fun n => strip m c t (ix2 (⟨(j 0).val, hr600⟩ : Fin 600) n))
      = fun n => m ((c : Thread nD τ).loc main_arg1) (ix2 (⟨t.val * 600 + (j 0).val, hR⟩ : Fin 10000) n) :=
    funext fun n => strip_row m c t _ hj0 _ rfl n
  have hb : (fun j' : Fin 128 => bblk m c t (ix2 (0 : Fin 1) j')) = fun j' => m ((c : Thread nD τ).loc main_arg3) (ix1 j') :=
    funext fun j' => by rw [bblk_eq]; exact bias_row m c j'
  rw [hrow, hb, xblk_eq, wblk_eq, V_main_arg0, V_main_arg2]
  rfl

/-- An index of the result array is in point `t`'s block iff each coordinate is in the block's range on its axis
    (the rows cut at the array's end). -/
theorem mem_blk (t : Fin cfg0.N) (i : S10000x128.Idx) :
    i ∈ ((cfg0.win 4).blk t).view.set ↔ ∀ a : Fin 2, win0_4.index t a * S600x128.size a ≤ (i a).val
      ∧ (i a).val < win0_4.index t a * S600x128.size a + win0_4.xsize (grid0.coords t) a := by
  show i ∈ ((View.whole main_v1).slice (win0_4.rect t)).set ↔ _
  rw [View.set_slice_whole, Rect.mem_set_unit]
  exact Iff.rfl

/-- Every row of the result array is in the strip `row / 600`: the 17 strips' write-backs cover the array. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  let t : Fin cfg0.N := ⟨(i 0).val / 600, by rw [show cfg0.N = 17 from N_0]; omega⟩
  obtain ⟨-, -, e40, e41, -, -, ex1, hfull, hcut, -⟩ := grid_facts t
  have htv : t.val = (i 0).val / 600 := rfl
  refine ⟨t, flush0_4 t, (mem_blk t i).mpr fun a => ?_⟩
  match a with
  | ⟨0, _⟩ =>
    show win0_4.index t (0 : Fin 2) * 600 ≤ (i 0).val ∧ (i 0).val < win0_4.index t (0 : Fin 2) * 600 + win0_4.xsize (grid0.coords t) (0 : Fin 2)
    rw [e40]
    rcases Nat.lt_or_ge 10000 ((t.val + 1) * 600) with h | h
    · have := hcut h; omega
    · have := hfull h; omega
  | ⟨1, _⟩ =>
    show win0_4.index t (1 : Fin 2) * 128 ≤ (i 1).val ∧ (i 1).val < win0_4.index t (1 : Fin 2) * 128 + win0_4.xsize (grid0.coords t) (1 : Fin 2)
    rw [e41, ex1]; omega

/-- THE RESULT ARRAY after the run is the layer of the launch contents. -/
theorem final (c : Dev nD) : (dats m 0 c).arrAt 4 cfg0.N = layer m c :=
  (dats m 0 c).arrAt_eq_of_cover 4 (layer m c) (fun t _ => flushed_eq m c t) covered

/-- The run, read: the result array holds the layer of the arguments, and the arguments are unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ValueRun

end
-- ==== Proof.RefIsSpec.lean ====
/-
  The reference program computes the layer of Spec.lean.

  The reference is read one operation at a time: two matrix products, the bias added along rows, the row's
  sum of squares, its root, and the quotient. At entry (p, j) each of these is the corresponding piece of
  `Cert.Gcn.lin`, `Cert.Gcn.sumsq` and `Cert.Gcn.rowOut` for row `p` of the adjacency matrix. Both sides are the
  same sums, the same root and the same quotient on the extended reals; the only law used is `0 + s = s`
  for the zero the row sum starts from.
-/
import proofs.«174248_g8435315769432_cont_9to1_m_1355_6_alg».proof.Proof.Spec
import proofs.«174248_g8435315769432_cont_9to1_m_1355_6_alg».proof.Proof.Gen.ReferenceIdeal.Read

noncomputable section

open Idealize.ShloMosaic Idealize.ShloMosaic.ValueIdx

namespace Cert.Gcn.Ref

open Cert.ReferenceIdeal

/-- The first product, adjacency times features, at row `p` and column `c`: `Σ_n adj[p, n] · x[n, c]`. -/
theorem v0_at (x0 : (⟨S10000x128, .f32⟩ : BufTy).Contents (Elt Ideal)) (x1 : (⟨S10000x10000, .f32⟩ : BufTy).Contents (Elt Ideal))
    (p : Fin 10000) (c : Fin 128) :
    Read.val_main_v0 (F := Ideal) x0 x1 (ix2 p c) = ∑ n : Fin 10000, x1 (ix2 p n) * x0 (ix2 n c) := by
  rw [Read.val_main_v0_apply]
  refine Finset.sum_congr rfl fun n _ => ?_
  have hl : Read.lidx_main_v0 (ix2 p c) n = ix2 p n :=
    funext fun a => Fin.ext (by match a with | ⟨0, _⟩ => rfl | ⟨1, _⟩ => rfl)
  have hr : Read.ridx_main_v0 (ix2 p c) n = ix2 n c :=
    funext fun a => Fin.ext (by match a with | ⟨0, _⟩ => rfl | ⟨1, _⟩ => rfl)
  rw [hl, hr]

/-- The second product, by the weights, at row `p` and column `j`: `Σ_c (Σ_n adj[p, n] · x[n, c]) · W[c, j]`. -/
theorem v1_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (p : Fin 10000) (j : Fin 128) :
    Read.val_main_v1 (F := Ideal) x0 x1 x2 (ix2 p j)
      = ∑ c : Fin 128, (∑ n : Fin 10000, x1 (ix2 p n) * x0 (ix2 n c)) * x2 (ix2 c j) := by
  rw [Read.val_main_v1_apply]
  refine Finset.sum_congr rfl fun c _ => ?_
  have hl : Read.lidx_main_v1 (ix2 p j) c = ix2 p c :=
    funext fun a => Fin.ext (by match a with | ⟨0, _⟩ => rfl | ⟨1, _⟩ => rfl)
  have hr : Read.ridx_main_v1 (ix2 p j) c = ix2 c j :=
    funext fun a => Fin.ext (by match a with | ⟨0, _⟩ => rfl | ⟨1, _⟩ => rfl)
  rw [hl, hr, v0_at]

/-- The bias spread along the rows: at (p, j) it is `b[j]`. -/
theorem v3_at (x3 : (⟨S128, .f32⟩ : BufTy).Contents (Elt Ideal)) (p : Fin 10000) (j : Fin 128) :
    Read.val_main_v3 (F := Ideal) x3 (ix2 p j) = x3 (ix1 j) := by
  rw [Read.val_main_v3_apply, Read.val_main_v2_apply]
  exact congrArg x3 (funext fun a => Fin.ext (by match a with | ⟨0, _⟩ => rfl))

/-- The linear layer at (p, j) is `lin` of row `p` of the adjacency matrix at column `j`. -/
theorem v4_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (p : Fin 10000) (j : Fin 128) :
    Read.val_main_v4 (F := Ideal) x0 x1 x2 x3 (ix2 p j)
      = Cert.Gcn.lin (fun n => x1 (ix2 p n)) x0 x2 (fun j => x3 (ix1 j)) j := by
  rw [Read.val_main_v4_apply, v1_at, v3_at, Ideal.addf_def]
  rfl

/-- The row's norm, spread along the row: at (p, j) it is the root of `sumsq` of row `p`. -/
theorem v7_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (p : Fin 10000) (j : Fin 128) :
    Read.val_main_v7 (F := Ideal) x0 x1 x2 x3 (ix2 p j)
      = Ideal.sqrt (Cert.Gcn.sumsq (fun n => x1 (ix2 p n)) x0 x2 (fun j => x3 (ix1 j))) := by
  rw [Read.val_main_v7_apply, Read.val_main_v6_apply, Read.val_main_v5_apply, Ideal.hostUnary_sqrt_def,
    Read.val_main_call0_v1_apply, Read.val_main_call0_cst_apply, Ideal.ofBits_def, Ideal.ofBits_zero_f32, zero_add]
  refine congrArg Ideal.sqrt ?_
  unfold Cert.Gcn.sumsq
  refine Finset.sum_congr rfl fun k _ => ?_
  have hk : Read.idx_main_call0_v1 (Read.idx_main_v6 (Read.idx_main_v7 (ix2 p j))) k = ix2 p k :=
    funext fun a => Fin.ext (by match a with | ⟨0, _⟩ => exact Nat.add_zero _ |>.trans (Nat.mul_one _) | ⟨1, _⟩ => rfl)
  rw [hk, Read.val_main_call0_v0_apply, v4_at, Ideal.mulf_def]

/-- The reference's result is the layer `G` of its four arguments (the adjacency matrix is the reference's
    second argument and `G`'s first). -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Cert.ReferenceIdeal.Read.val_main_v8 (F := Ideal) x0 x1 x2 x3 = Cert.Gcn.G x1 x0 x2 x3 := by
  funext i
  obtain ⟨p, q, rfl⟩ : ∃ (p : Fin 10000) (q : Fin 128), i = ix2 p q := ⟨i 0, i 1, eq_ix2 i⟩
  rw [Read.val_main_v8_apply, v4_at, v7_at, Ideal.hostDivf_def]
  rfl

end Cert.Gcn.Ref

end
-- ==== Proof.lean ====
/-
  A graph-convolution layer with row normalisation, `out = normalize_rows((adj · x) · W + b)`, computed by a kernel that
  walks the 10000-row adjacency matrix in 17 strips of 600 rows (the last strip overhanging the matrix by 200 rows),
  against the same formula written with whole-array operations.

  The claim has five parts.
  * The word-level kernel runs to the end, faults nowhere and leaves its four arguments unchanged: the body is
    straight-line code, so the frame needs nothing of the values it computes; the result's window is left unnamed and
    the strip's window is stated on its rows inside the matrix only.
  * The idealized kernel does the same, and its result array ends holding `Cert.Gcn.G` of the arguments: at the extended
    reals a row of what the body stores is a function of ONE row of the strip, so the rows written back do not see the
    unnamed tail of the last strip, and the 17 cut write-backs cover the result array.
  * The idealized reference runs and leaves its arguments unchanged (its run, with the result dropped).
  * The idealization rewrote nothing, so there is nothing to preserve.
  * The reference's result is the same `Cert.Gcn.G`: both sides are the same two matrix products as sums, the same bias,
    the same row sum of squares from zero, the same root and the same quotient; no law beyond `0 + s = s` is used and
    the finiteness of the inputs is never opened.
-/
import proofs.«174248_g8435315769432_cont_9to1_m_1355_6_alg».proof.Defs
import proofs.«174248_g8435315769432_cont_9to1_m_1355_6_alg».proof.Proof.Gen.Kernel
import proofs.«174248_g8435315769432_cont_9to1_m_1355_6_alg».proof.Proof.Gen.KernelIdeal
import proofs.«174248_g8435315769432_cont_9to1_m_1355_6_alg».proof.Proof.Gen.ReferenceIdeal
import proofs.«174248_g8435315769432_cont_9to1_m_1355_6_alg».proof.Proof.Gen.Pre_finite_inputs
import proofs.«174248_g8435315769432_cont_9to1_m_1355_6_alg».proof.Proof.Gen.ReferenceIdeal.Run
import proofs.«174248_g8435315769432_cont_9to1_m_1355_6_alg».proof.Proof.Gen.ReferenceIdeal.Read
import proofs.«174248_g8435315769432_cont_9to1_m_1355_6_alg».proof.Proof.BitsFrame
import proofs.«174248_g8435315769432_cont_9to1_m_1355_6_alg».proof.Proof.IdealRun
import proofs.«174248_g8435315769432_cont_9to1_m_1355_6_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.FrameRun.frame (F := Bits) m ρ

/-- The idealized kernel's frame: its run with the result named, the result dropped. -/
theorem frame_ki : Cert.frame_KernelIdeal := fun m ρ _ =>
  (θ_run Cert.KernelIdeal.defs _ _).mono (fun _ h c => (h c).2) (Cert.KernelIdeal.ValueRun.run m ρ)

/-- The idealized reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their
    result arrays: the kernel by its run, the reference because its composed term is the layer index by index. -/
theorem algebraic : Cert.algebraic_KernelIdeal_ReferenceIdeal := by
  intro m ρ m' ρ' _ hagree
  refine ⟨fun c => Cert.KernelIdeal.ValueRun.layer m c, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Gcn.Ref.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
